-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512x256 : Shape := ⟨3, ![128, 512, 256]⟩
abbrev S128x512x512 : Shape := ⟨3, ![128, 512, 512]⟩
abbrev S256x256 : Shape := ⟨2, ![256, 256]⟩
abbrev S256 : Shape := ⟨1, ![256]⟩
abbrev S256x10 : Shape := ⟨2, ![256, 10]⟩
abbrev S10 : Shape := ⟨1, ![10]⟩
abbrev S_ : Shape := ⟨0, ![]⟩

class Facts : Prop where
  bcast_S_S128x512x256 : S_.BroadcastsInDim S128x512x256 (![] : Fin 0 → Fin S128x512x256.rank)
  reducesTo_S128x512x256_S_d0_1_2 : S128x512x256.ReducesTo [0, 1, 2] S_
  h_S_ : 0 < S_.numel
  bcast_S_S128x512x512 : S_.BroadcastsInDim S128x512x512 (![] : Fin 0 → Fin S128x512x512.rank)
  reducesTo_S128x512x512_S_d0_1_2 : S128x512x512.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S256x10 .f32) (main_arg5 : FVec F S10 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x10 .f32 := Host.absf main_arg4
  let main_cst_6 : FVec F S_ .f32 := constant S_ .f32 0x7F800000#32
  let main_v20 : FVec F S256x10 .f32 := broadcastInDim S256x10 ![] bcast_S_S256x10 main_cst_6
  let main_v21 : IVec S256x10 1 := cmpf .olt main_v19 main_v20
  let main_c_7 : IVec S_ 1 := constantI S_ 1 1#1
  let main_v22 : IVec S_ 1 := (fun x v => Host.reduce IntOp.andi x v reducesTo_S256x10_S_d0_1 h_S_) main_v21 main_c_7
  let main_v23 : IVec S_ 1 := andi main_v18 main_v22
  let main_v24 : FVec F S10 .f32 := Host.absf main_arg5
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  main_v28

def fn {F : FTy → Type} [FloatOps F] (main_arg0 : FVec F S128x512x256 .f32) (main_arg1 : FVec F S128x512x512 .f32) (main_arg2 : FVec F S256x256 .f32) (main_arg3 : FVec F S256 .f32) (main_arg4 : FVec F S256x10 .f32) (main_arg5 : FVec F S10 .f32) : IVec S_ 1 :=
  let main_v0 : FVec F S128x512x256 .f32 := Host.absf main_arg0
  let main_cst : FVec F S_ .f32 := constant S_ .f32 0x7F800000#32
  let main_v1 : FVec F S128x512x256 .f32 := broadcastInDim S128x512x256 ![] bcast_S_S128x512x256 main_cst
  let main_v2 : IVec S128x512x256 1 := cmpf .olt main_v0 main_v1
  let main_c : IVec S_ 1 := constantI S_ 1 1#1
  let main_v3 : IVec S_ 1 := (fun x v => Host.reduce IntOp.andi x v reducesTo_S128x512x256_S_d0_1_2 h_S_) main_v2 main_c
  let main_v4 : FVec F S128x512x512 .f32 := Host.absf main_arg1
  let main_cst_0 : FVec F S_ .f32 := constant S_ .f32 0x7F800000#32
  let main_v5 : FVec F S128x512x512 .f32 := broadcastInDim S128x512x512 ![] bcast_S_S128x512x512 main_cst_0
  let main_v6 : IVec S128x512x512 1 := cmpf .olt main_v4 main_v5
  let main_c_1 : IVec S_ 1 := constantI S_ 1 1#1
  let main_v7 : IVec S_ 1 := (fun x v => Host.reduce IntOp.andi x v reducesTo_S128x512x512_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S128x512x256 : Shape := ⟨3, ![128, 512, 256]⟩
abbrev S128x512x512 : Shape := ⟨3, ![128, 512, 512]⟩
abbrev S256x256 : Shape := ⟨2, ![256, 256]⟩
abbrev S256 : Shape := ⟨1, ![256]⟩
abbrev S256x10 : Shape := ⟨2, ![256, 10]⟩
abbrev S10 : Shape := ⟨1, ![10]⟩
abbrev S1x256 : Shape := ⟨2, ![1, 256]⟩
abbrev S1x10 : Shape := ⟨2, ![1, 10]⟩
abbrev S128x512x10 : Shape := ⟨3, ![128, 512, 10]⟩
abbrev S16x512x256 : Shape := ⟨3, ![16, 512, 256]⟩
abbrev S16x512x512 : Shape := ⟨3, ![16, 512, 512]⟩
abbrev S16x512x10 : Shape := ⟨3, ![16, 512, 10]⟩
abbrev S1x512x512 : Shape := ⟨3, ![1, 512, 512]⟩
abbrev S512x512 : Shape := ⟨2, ![512, 512]⟩
abbrev S1x512x256 : Shape := ⟨3, ![1, 512, 256]⟩
abbrev S512x256 : Shape := ⟨2, ![512, 256]⟩
abbrev S512x10 : Shape := ⟨2, ![512, 10]⟩
abbrev S1x512x10 : Shape := ⟨3, ![1, 512, 10]⟩
abbrev S1x128x512x10 : Shape := ⟨4, ![1, 128, 512, 10]⟩

abbrev nBuf : Space → Nat
  | .hbm => 10
  | .vmem => 10
  | .smem => 0
  | _ => 0

abbrev bufTy : (tb : Table) → Fin (tcTables nBuf tb) → BufTy
  | .hbm, ⟨0, _⟩ => ⟨S128x512x256, .f32⟩
  | .hbm, ⟨1, _⟩ => ⟨S128x512x512, .f32⟩
  | .hbm, ⟨2, _⟩ => ⟨S256x256, .f32⟩
  | .hbm, ⟨3, _⟩ => ⟨S256, .f32⟩
  | .hbm, ⟨4, _⟩ => ⟨S256x10, .f32⟩
  | .hbm, ⟨5, _⟩ => ⟨S10, .f32⟩
  | .hbm, ⟨6, _⟩ => ⟨S1x256, .f32⟩
  | .hbm, ⟨7, _⟩ => ⟨S1x10, .f32⟩
  | .hbm, ⟨8, _⟩ => ⟨S128x512x10, .f32⟩
  | .hbm, ⟨9, _⟩ => ⟨S1x128x512x10, .f32⟩
  | .local _ .vmem, ⟨0, _⟩ => ⟨S16x512x256, .f32⟩
  | .local _ .vmem, ⟨1, _⟩ => ⟨S16x512x256, .f32⟩
  | .local _ .vmem, ⟨2, _⟩ => ⟨S16x512x512, .f32⟩
  | .local _ .vmem, ⟨3, _⟩ => ⟨S16x512x512, .f32⟩
  | .local _ .vmem, ⟨4, _⟩ => ⟨S256x256, .f32⟩
  | .local _ .vmem, ⟨5, _⟩ => ⟨S1x256, .f32⟩
  | .local _ .vmem, ⟨6, _⟩ => ⟨S256x10, .f32⟩
  | .local _ .vmem, ⟨7, _⟩ => ⟨S1x10, .f32⟩
  | .local _ .vmem, ⟨8, _⟩ => ⟨S16x512x10, .f32⟩
  | .local _ .vmem, ⟨9, _⟩ => ⟨S16x512x10, .f32⟩
  | _, _ => ⟨S128x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16x512x10 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S256_S1x256 : S256.ShapeCasts S1x256
  shapeCasts_S10_S1x10 : S10.ShapeCasts S1x10
  inb_S16x512x512_S1x512x512_0_0_0 : ∀ a, (![0, 0, 0] : Fin 3 → Nat) a + S1x512x512.size a ≤ S16x512x512.size a
  h_S1x512x512 : 0 < S1x512x512.numel
  shapeCasts_S1x512x512_S512x512 : S1x512x512.ShapeCasts S512x512
  bitsLt_bf16_f32 : FTy.bits .bf16 < FTy.bits .f32
  inb_S16x512x256_S1x512x256_0_0_0 : ∀ a, (![0, 0, 0] : Fin 3 → Nat) a + S1x512x256.size a ≤ S16x512x256.size a
  h_S1x512x256 : 0 < S1x512x256.numel
  shapeCasts_S1x512x256_S512x256 : S1x512x256.ShapeCasts S512x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S256x10_S256x10_0_0 : ∀ a, (![0, 0] : Fin 2 → Nat) a + S256x10.size a ≤ S256x10.size a
  h_S256x10 : 0 < S256x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  inb_S16x512x10_S1x512x10_0_0_0 : ∀ a, (![0, 0, 0] : Fin 3 → Nat) a + S1x512x10.size a ≤ S16x512x10.size a
  h_S1x512x10 : 0 < S1x512x10.numel
  shapeCasts_S1x512x10_S512x10 : S1x512x10.ShapeCasts S512x10
  shapeCasts_S512x10_S1x512x10 : S512x10.ShapeCasts S1x512x10
  inb_S16x512x512_S1x512x512_1_0_0 : ∀ a, (![1, 0, 0] : Fin 3 → Nat) a + S1x512x512.size a ≤ S16x512x512.size a
  inb_S16x512x256_S1x512x256_1_0_0 : ∀ a, (![1, 0, 0] : Fin 3 → Nat) a + S1x512x256.size a ≤ S16x512x256.size a
  inb_S16x512x10_S1x512x10_1_0_0 : ∀ a, (![1, 0, 0] : Fin 3 → Nat) a + S1x512x10.size a ≤ S16x512x10.size a
  inb_S16x512x512_S1x512x512_2_0_0 : ∀ a, (![2, 0, 0] : Fin 3 → Nat) a + S1x512x512.size a ≤ S16x512x512.size a
  inb_S16x512x256_S1x512x256_2_0_0 : ∀ a, (![2, 0, 0] : Fin 3 → Nat) a + S1x512x256.size a ≤ S16x512x256.size a
  inb_S16x512x10_S1x512x10_2_0_0 : ∀ a, (![2, 0, 0] : Fin 3 → Nat) a + S1x512x10.size a ≤ S16x512x10.size a
  inb_S16x512x512_S1x512x512_3_0_0 : ∀ a, (![3, 0, 0] : Fin 3 → Nat) a + S1x512x512.size a ≤ S16x512x512.size a
  inb_S16x512x256_S1x512x256_3_0_0 : ∀ a, (![3, 0, 0] : Fin 3 → Nat) a + S1x512x256.size a ≤ S16x512x256.size a
  inb_S16x512x10_S1x512x10_3_0_0 : ∀ a, (![3, 0, 0] : Fin 3 → Nat) a + S1x512x10.size a ≤ S16x512x10.size a
  inb_S16x512x512_S1x512x512_4_0_0 : ∀ a, (![4, 0, 0] : Fin 3 → Nat) a + S1x512x512.size a ≤ S16x512x512.size a
  inb_S16x512x256_S1x512x256_4_0_0 : ∀ a, (![4, 0, 0] : Fin 3 → Nat) a + S1x512x256.size a ≤ S16x512x256.size a
  inb_S16x512x10_S1x512x10_4_0_0 : ∀ a, (![4, 0, 0] : Fin 3 → Nat) a + S1x512x10.size a ≤ S16x512x10.size a
  inb_S16x512x512_S1x512x512_5_0_0 : ∀ a, (![5, 0, 0] : Fin 3 → Nat) a + S1x512x512.size a ≤ S16x512x512.size a
  inb_S16x512x256_S1x512x256_5_0_0 : ∀ a, (![5, 0, 0] : Fin 3 → Nat) a + S1x512x256.size a ≤ S16x512x256.size a
  inb_S16x512x10_S1x512x10_5_0_0 : ∀ a, (![5, 0, 0] : Fin 3 → Nat) a + S1x512x10.size a ≤ S16x512x10.size a
  inb_S16x512x512_S1x512x512_6_0_0 : ∀ a, (![6, 0, 0] : Fin 3 → Nat) a + S1x512x512.size a ≤ S16x512x512.size a
  inb_S16x512x256_S1x512x256_6_0_0 : ∀ a, (![6, 0, 0] : Fin 3 → Nat) a + S1x512x256.size a ≤ S16x512x256.size a
  inb_S16x512x10_S1x512x10_6_0_0 : ∀ a, (![6, 0, 0] : Fin 3 → Nat) a + S1x512x10.size a ≤ S16x512x10.size a
  inb_S16x512x512_S1x512x512_7_0_0 : ∀ a, (![7, 0, 0] : Fin 3 → Nat) a + S1x512x512.size a ≤ S16x512x512.size a
  inb_S16x512x256_S1x512x256_7_0_0 : ∀ a, (![7, 0, 0] : Fin 3 → Nat) a + S1x512x256.size a ≤ S16x512x256.size a
  inb_S16x512x10_S1x512x10_7_0_0 : ∀ a, (![7, 0, 0] : Fin 3 → Nat) a + S1x512x10.size a ≤ S16x512x10.size a
  inb_S16x512x512_S1x512x512_8_0_0 : ∀ a, (![8, 0, 0] : Fin 3 → Nat) a + S1x512x512.size a ≤ S16x512x512.size a
  inb_S16x512x256_S1x512x256_8_0_0 : ∀ a, (![8, 0, 0] : Fin 3 → Nat) a + S1x512x256.size a ≤ S16x512x256.size a
  inb_S16x512x10_S1x512x10_8_0_0 : ∀ a, (![8, 0, 0] : Fin 3 → Nat) a + S1x512x10.size a ≤ S16x512x10.size a
  inb_S16x512x512_S1x512x512_9_0_0 : ∀ a, (![9, 0, 0] : Fin 3 → Nat) a + S1x512x512.size a ≤ S16x512x512.size a
  inb_S16x512x256_S1x512x256_9_0_0 : ∀ a, (![9, 0, 0] : Fin 3 → Nat) a + S1x512x256.size a ≤ S16x512x256.size a
  inb_S16x512x10_S1x512x10_9_0_0 : ∀ a, (![9, 0, 0] : Fin 3 → Nat) a + S1x512x10.size a ≤ S16x512x10.size a
  inb_S16x512x512_S1x512x512_10_0_0 : ∀ a, (![10, 0, 0] : Fin 3 → Nat) a + S1x512x512.size a ≤ S16x512x512.size a
  inb_S16x512x256_S1x512x256_10_0_0 : ∀ a, (![10, 0, 0] : Fin 3 → Nat) a + S1x512x256.size a ≤ S16x512x256.size a
  inb_S16x512x10_S1x512x10_10_0_0 : ∀ a, (![10, 0, 0] : Fin 3 → Nat) a + S1x512x10.size a ≤ S16x512x10.size a
  inb_S16x512x512_S1x512x512_11_0_0 : ∀ a, (![11, 0, 0] : Fin 3 → Nat) a + S1x512x512.size a ≤ S16x512x512.size a
  inb_S16x512x256_S1x512x256_11_0_0 : ∀ a, (![11, 0, 0] : Fin 3 → Nat) a + S1x512x256.size a ≤ S16x512x256.size a
  inb_S16x512x10_S1x512x10_11_0_0 : ∀ a, (![11, 0, 0] : Fin 3 → Nat) a + S1x512x10.size a ≤ S16x512x10.size a
  inb_S16x512x512_S1x512x512_12_0_0 : ∀ a, (![12, 0, 0] : Fin 3 → Nat) a + S1x512x512.size a ≤ S16x512x512.size a
  inb_S16x512x256_S1x512x256_12_0_0 : ∀ a, (![12, 0, 0] : Fin 3 → Nat) a + S1x512x256.size a ≤ S16x512x256.size a
  inb_S16x512x10_S1x512x10_12_0_0 : ∀ a, (![12, 0, 0] : Fin 3 → Nat) a + S1x512x10.size a ≤ S16x512x10.size a
  inb_S16x512x512_S1x512x512_13_0_0 : ∀ a, (![13, 0, 0] : Fin 3 → Nat) a + S1x512x512.size a ≤ S16x512x512.size a
  inb_S16x512x256_S1x512x256_13_0_0 : ∀ a, (![13, 0, 0] : Fin 3 → Nat) a + S1x512x256.size a ≤ S16x512x256.size a
  inb_S16x512x10_S1x512x10_13_0_0 : ∀ a, (![13, 0, 0] : Fin 3 → Nat) a + S1x512x10.size a ≤ S16x512x10.size a
  inb_S16x512x512_S1x512x512_14_0_0 : ∀ a, (![14, 0, 0] : Fin 3 → Nat) a + S1x512x512.size a ≤ S16x512x512.size a
  inb_S16x512x256_S1x512x256_14_0_0 : ∀ a, (![14, 0, 0] : Fin 3 → Nat) a + S1x512x256.size a ≤ S16x512x256.size a
  inb_S16x512x10_S1x512x10_14_0_0 : ∀ a, (![14, 0, 0] : Fin 3 → Nat) a + S1x512x10.size a ≤ S16x512x10.size a
  inb_S16x512x512_S1x512x512_15_0_0 : ∀ a, (![15, 0, 0] : Fin 3 → Nat) a + S1x512x512.size a ≤ S16x512x512.size a
  inb_S16x512x256_S1x512x256_15_0_0 : ∀ a, (![15, 0, 0] : Fin 3 → Nat) a + S1x512x256.size a ≤ S16x512x256.size a
  inb_S16x512x10_S1x512x10_15_0_0 : ∀ a, (![15, 0, 0] : Fin 3 → Nat) a + S1x512x10.size a ≤ S16x512x10.size a
  bcast_S128x512x10_S1x128x512x10_1_2_3 : S128x512x10.BroadcastsInDim S1x128x512x10 (![1, 2, 3] : Fin 3 → Fin S1x128x512x10.rank)
  dot_S512x256_S256x256_S512x256_1_0_0_1_n_n_wf : DotDims.WF S512x256 S256x256 S512x256 [1] [0] [0] [1] [] []
  dot_S512x512_S512x256_S512x256_1_0_0_1_n_n_wf : DotDims.WF S512x512 S512x256 S512x256 [1] [0] [0] [1] [] []
  dot_S512x256_S256x10_S512x10_1_0_0_1_n_n_wf : DotDims.WF S512x256 S256x10 S512x10 [1] [0] [0] [1] [] []
  dot_S512x512_S512x10_S512x10_1_0_0_1_n_n_wf : DotDims.WF S512x512 S512x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x512x256.size a ≤ S128x512x256.size a
  hwx0_0 : ∀ i : grid0.Coords, EltTy.bits .f32 = 32 ∨ (Rect.block (s := S128x512x256) S16x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x512x512.size a ≤ S128x512x512.size a
  hwx0_1 : ∀ i : grid0.Coords, EltTy.bits .f32 = 32 ∨ (Rect.block (s := S128x512x512) S16x512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x10.size a ≤ S256x10.size a
  hwx0_4 : ∀ i : grid0.Coords, EltTy.bits .f32 = 32 ∨ (Rect.block (s := S256x10) S256x10.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x10.size a ≤ S1x10.size a
  hwx0_5 : ∀ i : grid0.Coords, EltTy.bits .f32 = 32 ∨ (Rect.block (s := S1x10) S1x10.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x512x10.size a ≤ S128x512x10.size a
  hwx0_6 : ∀ i : grid0.Coords, EltTy.bits .f32 = 32 ∨ (Rect.block (s := S128x512x10) S16x512x10.size (cc0_transform_6 i) (hinb0_6 i)).WholeWords (EltTy.packing .f32)

variable [Facts₀]

def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x256_S256x10_S512x10_1_0_0_1_n_n : DotDims S512x256 S256x10 S512x10 where
  lhsContracting := [1]
  rhsContracting := [0]
  lhsNonContracting := [0]
  rhsNonContracting := [1]
  lhsBatch := []
  rhsBatch := []
  wf := dot_S512x256_S256x10_S512x10_1_0_0_1_n_n_wf
def dot_S512x512_S512x10_S512x10_1_0_0_1_n_n : DotDims S512x512 S512x10 S512x10 where
  lhsContracting := [1]
  rhsContracting := [0]
  lhsNonContracting := [0]
  rhsNonContracting := [1]
  lhsBatch := []
  rhsBatch := []
  wf := dot_S512x512_S512x10_S512x10_1_0_0_1_n_n_wf

abbrev win0_0 : Pipeline.Window sig grid0 :=
  Pipeline.Window.ofSpec (Memref.whole main_arg0) S16x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x10.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S16x512x10.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S128x512x256 : Shape := ⟨3, ![128, 512, 256]⟩
abbrev S128x512x512 : Shape := ⟨3, ![128, 512, 512]⟩
abbrev S256x256 : Shape := ⟨2, ![256, 256]⟩
abbrev S256 : Shape := ⟨1, ![256]⟩
abbrev S256x10 : Shape := ⟨2, ![256, 10]⟩
abbrev S10 : Shape := ⟨1, ![10]⟩
abbrev S1x1x256 : Shape := ⟨3, ![1, 1, 256]⟩
abbrev S_ : Shape := ⟨0, ![]⟩
abbrev S128x512x10 : Shape := ⟨3, ![128, 512, 10]⟩
abbrev S1x1x10 : Shape := ⟨3, ![1, 1, 10]⟩
abbrev S1x128x512x10 : Shape := ⟨4, ![1, 128, 512, 10]⟩

abbrev nBuf : Space → Nat
  | .hbm => 20
  | .vmem => 0
  | .smem => 0
  | _ => 0

abbrev bufTy : (tb : Table) → Fin (tcTables nBuf tb) → BufTy
  | .hbm, ⟨0, _⟩ => ⟨S128x512x256, .f32⟩
  | .hbm, ⟨1, _⟩ => ⟨S128x512x512, .f32⟩
  | .hbm, ⟨2, _⟩ => ⟨S256x256, .f32⟩
  | .hbm, ⟨3, _⟩ => ⟨S256, .f32⟩
  | .hbm, ⟨4, _⟩ => ⟨S256x10, .f32⟩
  | .hbm, ⟨5, _⟩ => ⟨S10, .f32⟩
  | .hbm, ⟨6, _⟩ => ⟨S128x512x256, .f32⟩
  | .hbm, ⟨7, _⟩ => ⟨S1x1x256, .f32⟩
  | .hbm, ⟨8, _⟩ => ⟨S128x512x256, .f32⟩
  | .hbm, ⟨9, _⟩ => ⟨S128x512x256, .f32⟩
  | .hbm, ⟨10, _⟩ => ⟨S128x512x256, .f32⟩
  | .hbm, ⟨11, _⟩ => ⟨S_, .f32⟩
  | .hbm, ⟨12, _⟩ => ⟨S128x512x256, .f32⟩
  | .hbm, ⟨13, _⟩ => ⟨S128x512x256, .f32⟩
  | .hbm, ⟨14, _⟩ => ⟨S128x512x10, .f32⟩
  | .hbm, ⟨15, _⟩ => ⟨S1x1x10, .f32⟩
  | .hbm, ⟨16, _⟩ => ⟨S128x512x10, .f32⟩
  | .hbm, ⟨17, _⟩ => ⟨S128x512x10, .f32⟩
  | .hbm, ⟨18, _⟩ => ⟨S128x512x10, .f32⟩
  | .hbm, ⟨19, _⟩ => ⟨S1x128x512x10, .f32⟩
  | _, _ => ⟨S128x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S128x512x256_0_1_2 : S1x1x256.BroadcastsInDim S128x512x256 (![0, 1, 2] : Fin 3 → Fin S128x512x256.rank)
  bcast_S_S128x512x256 : S_.BroadcastsInDim S128x512x256 (![] : Fin 0 → Fin S128x512x256.rank)
  bcast_S10_S1x1x10_2 : S10.BroadcastsInDim S1x1x10 (![2] : Fin 1 → Fin S1x1x10.rank)
  bcast_S1x1x10_S128x512x10_0_1_2 : S1x1x10.BroadcastsInDim S128x512x10 (![0, 1, 2] : Fin 3 → Fin S128x512x10.rank)
  bcast_S128x512x10_S1x128x512x10_1_2_3 : S128x512x10.BroadcastsInDim S1x128x512x10 (![1, 2, 3] : Fin 3 → Fin S1x128x512x10.rank)
  dot_S128x512x256_S256x256_S128x512x256_2_0_01_1_n_n_wf : DotDims.WF S128x512x256 S256x256 S128x512x256 [2] [0] [0, 1] [1] [] []
  dot_S128x512x512_S128x512x256_S128x512x256_2_1_1_2_0_0_wf : DotDims.WF S128x512x512 S128x512x256 S128x512x256 [2] [1] [1] [2] [0] [0]
  dot_S128x512x256_S256x10_S128x512x10_2_0_01_1_n_n_wf : DotDims.WF S128x512x256 S256x10 S128x512x10 [2] [0] [0, 1] [1] [] []
  dot_S128x512x512_S128x512x10_S128x512x10_2_1_1_2_0_0_wf : DotDims.WF S128x512x512 S128x512x10 S128x512x10 [2] [1] [1] [2] [0] [0]

variable [Facts₀]

def dot_S128x512x256_S256x256_S128x512x256_2_0_01_1_n_n : DotDims S128x512x256 S256x256 S128x512x256 where
  lhsContracting := [2]
  rhsContracting := [0]
  lhsNonContracting := [0, 1]
  rhsNonContracting := [1]
  lhsBatch := []
  rhsBatch := []
  wf := dot_S128x512x256_S256x256_S128x512x256_2_0_01_1_n_n_wf
def dot_S128x512x512_S128x512x256_S128x512x256_2_1_1_2_0_0 : DotDims S128x512x512 S128x512x256 S128x512x256 where
  lhsContracting := [2]
  rhsContracting := [1]
  lhsNonContracting := [1]
  rhsNonContracting := [2]
  lhsBatch := [0]
  rhsBatch := [0]
  wf := dot_S128x512x512_S128x512x256_S128x512x256_2_1_1_2_0_0_wf
def dot_S128x512x256_S256x10_S128x512x10_2_0_01_1_n_n : DotDims S128x512x256 S256x10 S128x512x10 where
  lhsContracting := [2]
  rhsContracting := [0]
  lhsNonContracting := [0, 1]
  rhsNonContracting := [1]
  lhsBatch := []
  rhsBatch := []
  wf := dot_S128x512x256_S256x10_S128x512x10_2_0_01_1_n_n_wf
def dot_S128x512x512_S128x512x10_S128x512x10_2_1_1_2_0_0 : DotDims S128x512x512 S128x512x10 S128x512x10 where
  lhsContracting := [2]
  rhsContracting := [1]
  lhsNonContracting := [1]
  rhsNonContracting := [2]
  lhsBatch := [0]
  rhsBatch := [0]
  wf := dot_S128x512x512_S128x512x10_S128x512x10_2_1_1_2_0_0_wf

class Facts : Prop extends Facts₀ where

variable [Facts]
-- ==== Proof.Spec.lean ====
/-
  A two-layer graph convolution over dense adjacency matrices, as ONE function of one graph's data.

  For one graph with 512 nodes, 256 input features, 256 hidden features and 10 classes: the node features go through a
  linear layer (weights `w1`, bias `b1`), every node then takes the adjacency-weighted sum of its neighbours' rows, the
  result is rectified (a maximum with the value of the zero word), goes through a second linear layer (`w2`, `b2`), and
  is aggregated over the neighbours once more:

      out(n, c) = ∑ₚ a(n, p) · ( ∑ₕ max( ∑_q a(p, q) · ( ∑_f x(q, f) · w1(f, h) + b1(h) ), 0 ) · w2(h, c) + b2(c) ).

  The data are given by coordinates, so that the same function reads a slab of a batch, a block of a batch, or a
  whole array: only the readers differ.
-/
import Idealize.ShloMosaic.PureOps.Ideal
import Idealize.ShloMosaic.Lib.ValueIdx

noncomputable section

open scoped BigOperators

namespace Cert.Gcn

open Idealize.ShloMosaic Idealize.ShloMosaic.ValueIdx

/-- The value of the zero word: the floor of the rectifier. It is the same word in both programs and is never evaluated. -/
abbrev floor0 : EReal := Ideal.ofBits .f32 0x00000000#32

/-- The first linear layer of one graph at node `q`, hidden feature `h`. -/
def lin1 (xg : Fin 512 → Fin 256 → EReal) (w1 : Fin 256 → Fin 256 → EReal) (b1 : Fin 256 → EReal) (q : Fin 512) (h : Fin 256) : EReal :=
  (∑ f : Fin 256, xg q f * w1 f h) + b1 h

/-- The first aggregation, rectified: node `p`, hidden feature `h`. -/
def act1 (xg : Fin 512 → Fin 256 → EReal) (ag : Fin 512 → Fin 512 → EReal) (w1 : Fin 256 → Fin 256 → EReal) (b1 : Fin 256 → EReal)
    (p : Fin 512) (h : Fin 256) : EReal :=
  max (∑ q : Fin 512, ag p q * lin1 xg w1 b1 q h) floor0

/-- The second linear layer at node `p`, class `c`. -/
def lin2 (xg : Fin 512 → Fin 256 → EReal) (ag : Fin 512 → Fin 512 → EReal) (w1 : Fin 256 → Fin 256 → EReal) (b1 : Fin 256 → EReal)
    (w2 : Fin 256 → Fin 10 → EReal) (b2 : Fin 10 → EReal) (p : Fin 512) (c : Fin 10) : EReal :=
  (∑ h : Fin 256, act1 xg ag w1 b1 p h * w2 h c) + b2 c

/-- One graph's output at node `n`, class `c`: the second aggregation. -/
def gcn (xg : Fin 512 → Fin 256 → EReal) (ag : Fin 512 → Fin 512 → EReal) (w1 : Fin 256 → Fin 256 → EReal) (b1 : Fin 256 → EReal)
    (w2 : Fin 256 → Fin 10 → EReal) (b2 : Fin 10 → EReal) (n : Fin 512) (c : Fin 10) : EReal :=
  ∑ p : Fin 512, ag n p * lin2 xg ag w1 b1 w2 b2 p c

/-- The batch of 128 graphs: the output array `[128, 512, 10]` as a function of the six argument arrays, index by index.
    Graph `g` reads rows `g` of the features and of the adjacency; the weights and biases are shared. -/
def G (x : (⟨3, ![128, 512, 256]⟩ : Shape).Idx → EReal) (adj : (⟨3, ![128, 512, 512]⟩ : Shape).Idx → EReal)
    (w1 : (⟨2, ![256, 256]⟩ : Shape).Idx → EReal) (b1 : (⟨1, ![256]⟩ : Shape).Idx → EReal)
    (w2 : (⟨2, ![256, 10]⟩ : Shape).Idx → EReal) (b2 : (⟨1, ![10]⟩ : Shape).Idx → EReal) :
    (⟨3, ![128, 512, 10]⟩ : Shape).Idx → EReal := fun j =>
  gcn (fun q f => x (ix3 (j 0) q f)) (fun n p => adj (ix3 (j 0) n p)) (fun f h => w1 (ix2 f h)) (fun h => b1 (ix1 h))
    (fun h c => w2 (ix2 h c)) (fun c => b2 (ix1 c)) (j 1) (j 2)

end Cert.Gcn

end
-- ==== Proof.RefValue.lean ====
/-
  The reference program computes the batched two-layer graph convolution `Cert.Gcn.G`.

  Its @main is four contractions with a bias added after the first and the third and a rectifier after the second.
  Read one stage at a time at an index `(g, ·, ·)` of graph `g`:

    * the first contraction plus the broadcast bias is the first linear layer of graph `g` (`stage_lin1`);
    * the batched contraction with the adjacency, floored at the value of the zero word, is the rectified first
      aggregation (`stage_act1`);
    * the third contraction plus the broadcast bias is the second linear layer (`stage_lin2`);
    * the last batched contraction is the second aggregation, the output (`stage_out`).

  Every contraction is a plain sum over its one contracted coordinate, so each stage is the specification's formula
  with the same summation index sets: no law of the extended reals is needed.
-/
import proofs.«165973_g45483703665113_cont_8to1_c_412_12_alg».proof.Proof.Gen.ReferenceIdeal.Run
import proofs.«165973_g45483703665113_cont_8to1_c_412_12_alg».proof.Proof.Gen.ReferenceIdeal.Read
import proofs.«165973_g45483703665113_cont_8to1_c_412_12_alg».proof.Proof.Spec

noncomputable section

open scoped BigOperators

namespace Cert.ReferenceIdeal.RefValue

open Cert.ReferenceIdeal Cert.ReferenceIdeal.Read Idealize.ShloMosaic Idealize.ShloMosaic.ValueIdx Cert.Gcn

/-! ## The stages' operand indices, by coordinates -/

theorem lidx0 (g : Fin 128) (q : Fin 512) (h f : Fin 256) : lidx_main_v0 (ix3 g q h) f = ix3 g q f :=
  funext fun a => by match a with | ⟨0, _⟩ => rfl | ⟨1, _⟩ => rfl | ⟨2, _⟩ => rfl
theorem ridx0 (g : Fin 128) (q : Fin 512) (h f : Fin 256) : ridx_main_v0 (ix3 g q h) f = ix2 f h :=
  funext fun a => by match a with | ⟨0, _⟩ => rfl | ⟨1, _⟩ => rfl
theorem idx12 (g : Fin 128) (q : Fin 512) (h : Fin 256) : idx_main_v1 (idx_main_v2 (ix3 g q h)) = ix1 h :=
  funext fun a => by match a with | ⟨0, _⟩ => rfl
theorem lidx4 (g : Fin 128) (p q : Fin 512) (h : Fin 256) : lidx_main_v4 (ix3 g p h) q = ix3 g p q :=
  funext fun a => by match a with | ⟨0, _⟩ => rfl | ⟨1, _⟩ => rfl | ⟨2, _⟩ => rfl
theorem ridx4 (g : Fin 128) (p q : Fin 512) (h : Fin 256) : ridx_main_v4 (ix3 g p h) q = ix3 g q h :=
  funext fun a => by match a with | ⟨0, _⟩ => rfl | ⟨1, _⟩ => rfl | ⟨2, _⟩ => rfl
theorem lidx6 (g : Fin 128) (p : Fin 512) (c : Fin 10) (h : Fin 256) : lidx_main_v6 (ix3 g p c) h = ix3 g p h :=
  funext fun a => by match a with | ⟨0, _⟩ => rfl | ⟨1, _⟩ => rfl | ⟨2, _⟩ => rfl
theorem ridx6 (g : Fin 128) (p : Fin 512) (c : Fin 10) (h : Fin 256) : ridx_main_v6 (ix3 g p c) h = ix2 h c :=
  funext fun a => by match a with | ⟨0, _⟩ => rfl | ⟨1, _⟩ => rfl
theorem idx78 (g : Fin 128) (p : Fin 512) (c : Fin 10) : idx_main_v7 (idx_main_v8 (ix3 g p c)) = ix1 c :=
  funext fun a => by match a with | ⟨0, _⟩ => rfl
theorem lidx10 (g : Fin 128) (n p : Fin 512) (c : Fin 10) : lidx_main_v10 (ix3 g n c) p = ix3 g n p :=
  funext fun a => by match a with | ⟨0, _⟩ => rfl | ⟨1, _⟩ => rfl | ⟨2, _⟩ => rfl
theorem ridx10 (g : Fin 128) (n p : Fin 512) (c : Fin 10) : ridx_main_v10 (ix3 g n c) p = ix3 g p c :=
  funext fun a => by match a with | ⟨0, _⟩ => rfl | ⟨1, _⟩ => rfl | ⟨2, _⟩ => rfl

/-! ## The stages -/

variable (x0 : (⟨S128x512x256, .f32⟩ : BufTy).Contents (Elt Ideal)) (x1 : (⟨S128x512x512, .f32⟩ : BufTy).Contents (Elt Ideal))
  (x2 : (⟨S256x256, .f32⟩ : BufTy).Contents (Elt Ideal)) (x3 : (⟨S256, .f32⟩ : BufTy).Contents (Elt Ideal))
  (x4 : (⟨S256x10, .f32⟩ : BufTy).Contents (Elt Ideal)) (x5 : (⟨S10, .f32⟩ : BufTy).Contents (Elt Ideal))

/-- The features times the first weights plus the first bias, at graph `g`, node `q`, hidden feature `h`. -/
theorem stage_lin1 (g : Fin 128) (q : Fin 512) (h : Fin 256) :
    val_main_v3 (F := Ideal) x0 x2 x3 (ix3 g q h)
      = lin1 (fun q f => x0 (ix3 g q f)) (fun f h => x2 (ix2 f h)) (fun h => x3 (ix1 h)) q h := by
  rw [val_main_v3_apply, val_main_v0_apply, val_main_v2_apply, val_main_v1_apply]
  simp only [lidx0, ridx0, idx12]
  rfl

/-- The adjacency-weighted sum of the first layer over the neighbours, floored at the value of the zero word. -/
theorem stage_act1 (g : Fin 128) (p : Fin 512) (h : Fin 256) :
    val_main_v5 (F := Ideal) x0 x1 x2 x3 (ix3 g p h)
      = act1 (fun q f => x0 (ix3 g q f)) (fun n p => x1 (ix3 g n p)) (fun f h => x2 (ix2 f h)) (fun h => x3 (ix1 h)) p h := by
  rw [val_main_v5_apply, val_main_v4_apply, val_main_call0_v0_apply, val_main_call0_cst_apply]
  simp only [lidx4, ridx4, stage_lin1]
  rfl

/-- The rectified aggregation times the second weights plus the second bias. -/
theorem stage_lin2 (g : Fin 128) (p : Fin 512) (c : Fin 10) :
    val_main_v9 (F := Ideal) x0 x1 x2 x3 x4 x5 (ix3 g p c)
      = lin2 (fun q f => x0 (ix3 g q f)) (fun n p => x1 (ix3 g n p)) (fun f h => x2 (ix2 f h)) (fun h => x3 (ix1 h))
          (fun h c => x4 (ix2 h c)) (fun c => x5 (ix1 c)) p c := by
  rw [val_main_v9_apply, val_main_v6_apply, val_main_v8_apply, val_main_v7_apply]
  simp only [lidx6, ridx6, idx78, stage_act1]
  rfl

/-- The second aggregation: the output of graph `g` at node `n`, class `c`. -/
theorem stage_out (g : Fin 128) (n : Fin 512) (c : Fin 10) :
    val_main_v10 (F := Ideal) x0 x1 x2 x3 x4 x5 (ix3 g n c)
      = gcn (fun q f => x0 (ix3 g q f)) (fun n p => x1 (ix3 g n p)) (fun f h => x2 (ix2 f h)) (fun h => x3 (ix1 h))
          (fun h c => x4 (ix2 h c)) (fun c => x5 (ix1 c)) n c := by
  rw [val_main_v10_apply]
  simp only [lidx10, ridx10, stage_lin2]
  rfl

/-- The reference's array before its final added unit axis is the specification, as whole arrays. -/
theorem ref_eq : val_main_v10 (F := Ideal) x0 x1 x2 x3 x4 x5 = G x0 x1 x2 x3 x4 x5 := by
  funext i
  obtain ⟨g, n, c, rfl⟩ : ∃ (g : Fin 128) (n : Fin 512) (c : Fin 10), i = ix3 g n c := ⟨i 0, i 1, i 2, eq_ix3 i⟩
  exact stage_out x0 x1 x2 x3 x4 x5 g n c

end Cert.ReferenceIdeal.RefValue

end
-- ==== Proof.LibRowwise.lean ====
/-
  Rank-2 vectors read row by row, at the extended reals, for any sizes.

    * a plain matrix product `[M, K] × [K, N]` into a zero accumulator, at `(p, q)`: `∑ₖ a(p, k) · b(k, q)`;
    * a sum over the lanes (axis 1) of an `[A, B]` vector, at row `p`: `∑ₖ v(p, k)`;
    * a maximum over the lanes, at row `p`: the fold of `max` from the starting word's value over `v(p, ·)`;
    * the cast of a length-`A` vector to a column `[A, 1]`, at `(p, u)`: the vector at `p`;
    * the broadcast of a column `[A, 1]` along the lanes to `[A, B]`, at `(p, q)`: the column at `(p, 0)`.

  A dimension-numbers record that contracts the left operand's axis 1 with the right operand's axis 0 and has no batch
  axes IS the plain record (`eq_plain`), so the product lemma serves every such record a program prints.
-/
import Idealize.ShloMosaic.PureOps.Ideal.Laws
import Idealize.ShloMosaic.Lib.ValueIdx
import Idealize.ShloMosaic.Lib.Pipeline.Value

noncomputable section

namespace Cert.Lib.Rowwise

open Idealize.ShloMosaic Idealize.ShloMosaic.ValueIdx

/-! ## The plain matrix product -/

section Dot

variable {M K N : Nat}

/-- A record over `[M, K]`, `[K, N]`, `[M, N]` whose six lists are the plain product's is the plain record. -/
theorem eq_plain (D : DotDims ⟨2, ![M, K]⟩ ⟨2, ![K, N]⟩ ⟨2, ![M, N]⟩) (h1 : D.lhsContracting = [1]) (h2 : D.rhsContracting = [0])
    (h3 : D.lhsNonContracting = [0]) (h4 : D.rhsNonContracting = [1]) (h5 : D.lhsBatch = []) (h6 : D.rhsBatch = []) :
    D = DotDims.plain M K N := by
  cases D
  simp only at h1 h2 h3 h4 h5 h6
  subst h1 h2 h3 h4 h5 h6
  rfl

theorem plain_lhs0 (j : (⟨2, ![M, N]⟩ : Shape).Idx) (q : (DotDims.plain M K N).contr.Idx) :
    ((DotDims.plain M K N).lhsIdx j q 0).val = (j 0).val := rfl
theorem plain_lhs1 (j : (⟨2, ![M, N]⟩ : Shape).Idx) (q : (DotDims.plain M K N).contr.Idx) :
    ((DotDims.plain M K N).lhsIdx j q 1).val = (q ⟨0, Nat.one_pos⟩).val := rfl
theorem plain_rhs0 (j : (⟨2, ![M, N]⟩ : Shape).Idx) (q : (DotDims.plain M K N).contr.Idx) :
    ((DotDims.plain M K N).rhsIdx j q 0).val = (q ⟨0, Nat.one_pos⟩).val := rfl
theorem plain_rhs1 (j : (⟨2, ![M, N]⟩ : Shape).Idx) (q : (DotDims.plain M K N).contr.Idx) :
    ((DotDims.plain M K N).rhsIdx j q 1).val = (j 1).val := rfl

/-- The plain product into the zero word, read at `(p, q)`: the sum over the contracted coordinate. -/
theorem plain_matmul_zero_apply {φ₁ φ₂ : FTy} (prec : Option ContractPrecision) (a : FVec Ideal ⟨2, ![M, K]⟩ φ₁)
    (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

end Dot

/-! ## Lane reductions -/

section Lanes

variable {A B : Nat} {φ : FTy}

/-- Row `p` with lane `k` put back is `(p, k)`. -/
theorem lift_row (h : (⟨2, ![A, B]⟩ : Shape).Reduces [1] ⟨1, ![A]⟩) (p : Fin A) (k : Fin B) :
    h.lift (ix1 p) k = ix2 p k :=
  funext fun a => Fin.ext (by match a with | ⟨0, _⟩ => rfl | ⟨1, _⟩ => rfl)

/-- A lane sum at row `p`. -/
theorem laneSum_apply (src : FVec Ideal ⟨2, ![A, B]⟩ φ) (acc : BitVec φ.bits) (h : (⟨2, ![A, B]⟩ : Shape).Reduces [1] ⟨1, ![A]⟩)
    (hφ : FKind.Formats φ) (hacc : acc = FKind.add.neutral φ hφ) (p : Fin A) :
    multiReduction .add [1] ⟨1, ![A]⟩ src acc h hφ hacc (ix1 p) = ∑ k : Fin B, src (ix2 p k) := by
  rw [Ideal.multiReduction_add_single]
  exact Finset.sum_congr rfl fun k _ => congrArg src (lift_row h p k)

/-- A lane maximum at row `p`: the fold of `max` from the starting word's value. -/
theorem laneMax_apply (src : FVec Ideal ⟨2, ![A, B]⟩ φ) (acc : BitVec φ.bits) (h : (⟨2, ![A, B]⟩ : Shape).Reduces [1] ⟨1, ![A]⟩)
    (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  rw [Ideal.multiReduction_maximumf_single]
  have e : (src ∘ h.lift (ix1 p)) = fun k => src (ix2 p k) := funext fun k => congrArg src (lift_row h p k)
  rw [e]
  rfl

end Lanes

/-! ## Columns -/

section Columns

variable {A B : Nat} {α : Type}

/-- A length-`A` vector cast to a column reads, at `(p, u)`, the vector at `p`. -/
theorem column_apply (v : (⟨1, ![A]⟩ : Shape).Idx → α) (h : (⟨1, ![A]⟩ : Shape).ShapeCasts ⟨2, ![A, 1]⟩) (p : Fin A) (u : Fin 1) :
    shapeCast ⟨2, ![A, 1]⟩ v h (ix2 p u) = v (ix1 p) := by
  refine shapeCast_apply v h (ix2 p u) (ix1 p) ?_
  rw [Shape.rowMajor_val_one, Shape.rowMajor_val_two]
  have hu : u.val = 0 := by omega
  show p.val = p.val * 1 + u.val
  omega

/-- A column broadcast along the lanes reads, at `(p, q)`, the column at `(p, 0)`. -/
theorem columnBroadcast_apply (v : (⟨2, ![A, 1]⟩ : Shape).Idx → α) (h : (⟨2, ![A, 1]⟩ : Shape).Broadcasts ⟨2, ![A, B]⟩)
    (hA : A ≠ 1) (p : Fin A) (q : Fin B) : broadcastTo ⟨2, ![A, B]⟩ v h (ix2 p q) = v (ix2 p 0) := by
  refine broadcastTo_apply v h (ix2 p q) (ix2 p 0) fun a => ?_
  match a with
  | ⟨0, _⟩ => exact (if_neg hA).symm
  | ⟨1, _⟩ => exact (if_pos rfl).symm

end Columns

end Cert.Lib.Rowwise

end
-- ==== Proof.SlabValue.lean ====
/-
  One graph's slab through the kernel body, at the extended reals.

  The body handles the sixteen graphs of a block one after the other, each by the same chain: the adjacency slab
  `[1, 512, 512]` and the feature slab `[1, 512, 256]` lose their unit axis, four matrix products into the zero word
  interleave with two bias rows broadcast over the 512 nodes and a maximum with the zero word, and the `[512, 10]`
  result gets its unit axis back. The narrowing format changes are the identity here. Read at node `n`, class `c`,
  the chain is the specification's `Cert.Gcn.gcn` over readers of the six loaded vectors (`slab_apply`).
-/
import proofs.«165973_g45483703665113_cont_8to1_c_412_12_alg».proof.Proof.Gen.KernelIdeal.Skeleton
import proofs.«165973_g45483703665113_cont_8to1_c_412_12_alg».proof.Proof.LibRowwise
import proofs.«165973_g45483703665113_cont_8to1_c_412_12_alg».proof.Proof.Spec
import Idealize.ShloMosaic.Lib.ValueIdx
import Idealize.ShloMosaic.Lib.ValueLayout
import Idealize.ShloMosaic.Lib.Pipeline.Value

noncomputable section

open scoped BigOperators

namespace Cert.KernelIdeal.Slab

open Cert.KernelIdeal Cert.KernelIdeal.Gen Idealize.ShloMosaic Idealize.ShloMosaic.ValueIdx Cert.Gcn

/-! ## The four matrix products, each a plain sum over its contracted coordinate -/

/-- Features times first weights: `[512, 256] × [256, 256]`. -/
theorem mm_xw1 {φ₁ φ₂ : FTy} (a : FVec Ideal S512x256 φ₁) (b : FVec Ideal S256x256 φ₂) (p : Fin 512) (q : Fin 256) :
    matmul dot_S512x256_S256x256_S512x256_1_0_0_1_n_n none a b (constant S512x256 .f32 0x00000000#32) (ix2 p q)
      = ∑ k : Fin 256, a (ix2 p k) * b (ix2 k q) := by
  rw [Cert.Lib.Rowwise.eq_plain (M := 512) (K := 256) (N := 256) dot_S512x256_S256x256_S512x256_1_0_0_1_n_n rfl rfl rfl rfl rfl rfl]
  exact Cert.Lib.Rowwise.plain_matmul_zero_apply none a b p q

/-- Adjacency times the first layer: `[512, 512] × [512, 256]`. -/
theorem mm_ah {φ₁ φ₂ : FTy} (a : FVec Ideal S512x512 φ₁) (b : FVec Ideal S512x256 φ₂) (p : Fin 512) (q : Fin 256) :
    matmul dot_S512x512_S512x256_S512x256_1_0_0_1_n_n none a b (constant S512x256 .f32 0x00000000#32) (ix2 p q)
      = ∑ k : Fin 512, a (ix2 p k) * b (ix2 k q) := by
  rw [Cert.Lib.Rowwise.eq_plain (M := 512) (K := 512) (N := 256) dot_S512x512_S512x256_S512x256_1_0_0_1_n_n rfl rfl rfl rfl rfl rfl]
  exact Cert.Lib.Rowwise.plain_matmul_zero_apply none a b p q

/-- Rectified aggregation times second weights: `[512, 256] × [256, 10]`. -/
theorem mm_hw2 {φ₁ φ₂ : FTy} (a : FVec Ideal S512x256 φ₁) (b : FVec Ideal S256x10 φ₂) (p : Fin 512) (q : Fin 10) :
    matmul dot_S512x256_S256x10_S512x10_1_0_0_1_n_n none a b (constant S512x10 .f32 0x00000000#32) (ix2 p q)
      = ∑ k : Fin 256, a (ix2 p k) * b (ix2 k q) := by
  rw [Cert.Lib.Rowwise.eq_plain (M := 512) (K := 256) (N := 10) dot_S512x256_S256x10_S512x10_1_0_0_1_n_n rfl rfl rfl rfl rfl rfl]
  exact Cert.Lib.Rowwise.plain_matmul_zero_apply none a b p q

/-- Adjacency times the second layer: `[512, 512] × [512, 10]`. -/
theorem mm_ao {φ₁ φ₂ : FTy} (a : FVec Ideal S512x512 φ₁) (b : FVec Ideal S512x10 φ₂) (p : Fin 512) (q : Fin 10) :
    matmul dot_S512x512_S512x10_S512x10_1_0_0_1_n_n none a b (constant S512x10 .f32 0x00000000#32) (ix2 p q)
      = ∑ k : Fin 512, a (ix2 p k) * b (ix2 k q) := by
  rw [Cert.Lib.Rowwise.eq_plain (M := 512) (K := 512) (N := 10) dot_S512x512_S512x10_S512x10_1_0_0_1_n_n rfl rfl rfl rfl rfl rfl]
  exact Cert.Lib.Rowwise.plain_matmul_zero_apply none a b p q

/-! ## The chain at an index -/

/-- The body's chain on one graph's loaded vectors, at node `n` and class `c` (whatever the unit coordinate `u`):
    the two-layer graph convolution of the slab. -/
theorem slab_apply (a : Vec Ideal S1x512x512 .f32) (x : Vec Ideal S1x512x256 .f32) (w1 : Vec Ideal S256x256 .f32)
    (b1 : Vec Ideal S1x256 .f32) (w2 : Vec Ideal S256x10 .f32) (b2 : Vec Ideal S1x10 .f32) (u : Fin 1) (n : Fin 512) (c : Fin 10) :
    k0_pay2 (F := Ideal) a x w1 b1 w2 b2 (ix3 u n c)
      = gcn (fun q f => x (ix3 (0 : Fin 1) q f)) (fun n p => a (ix3 (0 : Fin 1) n p)) (fun f h => w1 (ix2 f h))
          (fun h => b1 (ix2 (0 : Fin 1) h)) (fun h c => w2 (ix2 h c)) (fun c => b2 (ix2 (0 : Fin 1) c)) n c := by
  unfold k0_pay2
  simp only [shapeCast_ab_1ab_apply, mm_ao, mm_hw2, mm_ah, mm_xw1, truncf_apply, addf_apply, maximumf_apply, broadcast_apply,
    shapeCast_1ab_ab_apply, broadcastTo_1b_ab_apply, shapeCast_self]
  rfl

end Cert.KernelIdeal.Slab

end
-- ==== Proof.BlockValue.lean ====
/-
  What the kernel body leaves in the output block, at the extended reals.

  A grid point's block holds sixteen graphs. The body writes the output block in sixteen stores, one `[1, 512, 10]`
  slab per graph; the slab of graph `s` is the body's chain (`Cert.KernelIdeal.Slab.slab_apply`) applied to slab `s`
  of the adjacency block, slab `s` of the feature block, and the whole weight and bias blocks. The printed body is cut
  into windows by position, so the sixteen chains are spelt through differently cut intermediate values; each spelling
  unfolds to the same chain (`cut1` … `cut15`).

  So the block after the body is ONE function of the block index `(s, n, c)` (`blockOut`): the two-layer graph
  convolution of graph `s` of the block at node `n`, class `c`. The sixteen stores tile the block, each agreeing with that
  function on its slab (`out_block`).
-/
import proofs.«165973_g45483703665113_cont_8to1_c_412_12_alg».proof.Proof.Gen.KernelIdeal.Frame
import proofs.«165973_g45483703665113_cont_8to1_c_412_12_alg».proof.Proof.SlabValue
import Idealize.ShloMosaic.Lib.Pipeline.Value

set_option maxRecDepth 16384

noncomputable section

open scoped BigOperators

namespace Cert.KernelIdeal.Block

open Cert.KernelIdeal Cert.KernelIdeal.Gen Cert.KernelIdeal.Slab Idealize.ShloMosaic Idealize.ShloMosaic.ValueIdx Cert.Gcn

/-! ## The sixteen spellings of the chain -/

section Cuts
variable {F : FTy → Type} [FloatOps F]
variable (a : Vec F S1x512x512 .f32) (x : Vec F S1x512x256 .f32) (w1 : Vec F S256x256 .f32) (b1 : Vec F S1x256 .f32)
  (w2 : Vec F S256x10 .f32) (b2 : Vec F S1x10 .f32)

theorem cut15 : k0_pay1 (k0_pay41 a) (k0_pay42 a x w1 b1 w2 b2) = k0_pay2 a x w1 b1 w2 b2 := rfl
theorem cut14 : k0_pay40 (k0_pay38 a) (k0_pay39 a x w1 b1 w2) b2 = k0_pay2 a x w1 b1 w2 b2 := rfl
theorem cut13 : k0_pay37 (k0_pay35 a) (k0_pay36 a x w1 b1) w2 b2 = k0_pay2 a x w1 b1 w2 b2 := rfl
theorem cut12 : k0_pay34 (k0_pay31 a) (k0_pay32 x w1) (k0_pay33 b1) w2 b2 = k0_pay2 a x w1 b1 w2 b2 := rfl
theorem cut11 : k0_pay30 (k0_pay27 a) (k0_pay28 x) (k0_pay29 w1) b1 w2 b2 = k0_pay2 a x w1 b1 w2 b2 := rfl
theorem cut10 : k0_pay26 (k0_pay25 a) x w1 b1 w2 b2 = k0_pay2 a x w1 b1 w2 b2 := rfl
theorem cut9 : k0_pay24 a x w1 b1 w2 b2 = k0_pay2 a x w1 b1 w2 b2 := rfl
theorem cut8 : k0_pay23 a x w1 b1 w2 b2 = k0_pay2 a x w1 b1 w2 b2 := rfl
theorem cut7 : k0_pay22 (k0_pay21 a x w1 b1 w2 b2) = k0_pay2 a x w1 b1 w2 b2 := rfl
theorem cut6 : k0_pay20 (k0_pay17 a) (k0_pay18 a x w1 b1 w2) (k0_pay19 b2) = k0_pay2 a x w1 b1 w2 b2 := rfl
theorem cut5 : k0_pay16 (k0_pay14 a) (k0_pay15 a x w1 b1) w2 b2 = k0_pay2 a x w1 b1 w2 b2 := rfl
theorem cut4 : k0_pay13 (k0_pay11 a) (k0_pay12 a x w1 b1) w2 b2 = k0_pay2 a x w1 b1 w2 b2 := rfl
theorem cut3 : k0_pay10 (k0_pay8 a) (k0_pay9 x w1) b1 w2 b2 = k0_pay2 a x w1 b1 w2 b2 := rfl
theorem cut2 : k0_pay7 (k0_pay5 a) (k0_pay6 x) w1 b1 w2 b2 = k0_pay2 a x w1 b1 w2 b2 := rfl
theorem cut1 : k0_pay4 (k0_pay3 a) x w1 b1 w2 b2 = k0_pay2 a x w1 b1 w2 b2 := rfl

end Cuts

/-! ## Loads through the slabs of a block -/

theorem hz2 : (![0, 0] : Fin 2 → Nat) = fun _ => 0 := funext fun a => by fin_cases a <;> rfl

/-- A load of slab `s` of a `[16, A, B]` buffer reads, at `(0, i, j)`, the buffer at `(s, i, j)`. -/
theorem ld_slab {A B : Nat} (X : Vec Ideal (⟨3, ![16, A, B]⟩ : Shape) .f32) (s : Fin 16) (off : Fin 3 → Nat)
    (inb : ∀ d, off d + (⟨3, ![1, A, B]⟩ : Shape).size d ≤ (⟨3, ![16, A, B]⟩ : Shape).size d) (hoff : off = ![s.val, 0, 0])
    (i : Fin A) (j : Fin B) :
    View.ld X (Rect.unit (s := (⟨3, ![16, A, B]⟩ : Shape)) off (⟨3, ![1, A, B]⟩ : Shape).size inb) (ix3 (0 : Fin 1) i j) = X (ix3 s i j) := by
  subst hoff
  show X _ = X _
  refine congrArg X (funext fun d => Fin.ext ?_)
  match d with
  | ⟨0, _⟩ => show s.val + 1 * 0 = s.val; omega
  | ⟨1, _⟩ => show 0 + 1 * i.val = i.val; omega
  | ⟨2, _⟩ => show 0 + 1 * j.val = j.val; omega

/-! ## The block after the body -/

/-- The output block as one function of its index `(s, n, c)`: graph `s` of the block through the two layers. -/
def blockOut (x0 : Vec Ideal S16x512x256 .f32) (x1 : Vec Ideal S16x512x512 .f32) (x2 : Vec Ideal S256x256 .f32)
    (x3 : Vec Ideal S1x256 .f32) (x4 : Vec Ideal S256x10 .f32) (x5 : Vec Ideal S1x10 .f32) : Vec Ideal S16x512x10 .f32 := fun y =>
  gcn (fun q f => x0 (ix3 (y 0) q f)) (fun n p => x1 (ix3 (y 0) n p)) (fun f h => x2 (ix2 f h)) (fun h => x3 (ix2 (0 : Fin 1) h))
    (fun h c => x4 (ix2 h c)) (fun c => x5 (ix2 (0 : Fin 1) c)) (y 1) (y 2)

variable (x0 : Vec Ideal S16x512x256 .f32) (x1 : Vec Ideal S16x512x512 .f32) (x2 : Vec Ideal S256x256 .f32)
  (x3 : Vec Ideal S1x256 .f32) (x4 : Vec Ideal S256x10 .f32) (x5 : Vec Ideal S1x10 .f32)

/-- The chain on slab `s` of the adjacency and feature blocks and on the whole weight and bias blocks, at node `n`,
    class `c`: graph `s` of the block through the two layers. -/
theorem slab_piece (s : Fin 16) (offA : Fin 3 → Nat) (inbA : ∀ d, offA d + S1x512x512.size d ≤ S16x512x512.size d)
    (hA : offA = ![s.val, 0, 0]) (offX : Fin 3 → Nat) (inbX : ∀ d, offX d + S1x512x256.size d ≤ S16x512x256.size d)
    (hX : offX = ![s.val, 0, 0]) (u : Fin 1) (n : Fin 512) (c : Fin 10) :
    k0_pay2 (F := Ideal) (View.ld x1 (Rect.unit (s := S16x512x512) offA S1x512x512.size inbA))
        (View.ld x0 (Rect.unit (s := S16x512x256) offX S1x512x256.size inbX)) (View.ld x2 r0_2) (View.ld x3 r0_3) (View.ld x4 r0_4)
        (View.ld x5 r0_5) (ix3 u n c)
      = gcn (fun q f => x0 (ix3 s q f)) (fun n p => x1 (ix3 s n p)) (fun f h => x2 (ix2 f h)) (fun h => x3 (ix2 (0 : Fin 1) h))
          (fun h c => x4 (ix2 h c)) (fun c => x5 (ix2 (0 : Fin 1) c)) n c := by
  rw [slab_apply]
  have e2 : View.ld x2 r0_2 = x2 := View.ld_unit_zero (S := S256x256) hz2 _ x2
  have e3 : View.ld x3 r0_3 = x3 := View.ld_unit_zero (S := S1x256) hz2 _ x3
  have e4 : View.ld x4 r0_4 = x4 := View.ld_unit_zero (S := S256x10) hz2 _ x4
  have e5 : View.ld x5 r0_5 = x5 := View.ld_unit_zero (S := S1x10) hz2 _ x5
  rw [e2, e3, e4, e5]
  have eA : (fun (n p : Fin 512) => View.ld x1 (Rect.unit (s := S16x512x512) offA S1x512x512.size inbA) (ix3 (0 : Fin 1) n p))
      = fun n p => x1 (ix3 s n p) := funext fun n => funext fun p => ld_slab x1 s offA inbA hA n p
  have eX : (fun (q : Fin 512) (f : Fin 256) => View.ld x0 (Rect.unit (s := S16x512x256) offX S1x512x256.size inbX) (ix3 (0 : Fin 1) q f))
      = fun q f => x0 (ix3 s q f) := funext fun q => funext fun f => ld_slab x0 s offX inbX hX q f
  rw [eA, eX]

/-- A store of slab `s` whose payload is graph `s` through the two layers agrees with `blockOut` on its rectangle. -/
theorem piece_ok (s : Fin 16) (off : Fin 3 → Nat) (inb : ∀ d, off d + S1x512x10.size d ≤ S16x512x10.size d)
    (hoff : off = ![s.val, 0, 0]) (pay : Vec Ideal S1x512x10 .f32)
    (hpay : ∀ (u : Fin 1) (n : Fin 512) (c : Fin 10), pay (ix3 u n c)
      = gcn (fun q f => x0 (ix3 s q f)) (fun n p => x1 (ix3 s n p)) (fun f h => x2 (ix2 f h)) (fun h => x3 (ix2 (0 : Fin 1) h))
          (fun h c => x4 (ix2 h c)) (fun c => x5 (ix2 (0 : Fin 1) c)) n c)
    (xi : S1x512x10.Idx) :
    pay xi = blockOut x0 x1 x2 x3 x4 x5 ((Rect.unit (s := S16x512x10) off S1x512x10.size inb).emb xi) := by
  subst hoff
  obtain ⟨u, n, c, rfl⟩ : ∃ (u : Fin 1) (n : Fin 512) (c : Fin 10), xi = ix3 u n c := ⟨xi 0, xi 1, xi 2, eq_ix3 xi⟩
  have e : (Rect.unit (s := S16x512x10) ![s.val, 0, 0] S1x512x10.size inb).emb (ix3 u n c) = ix3 s n c :=
    funext fun d => Fin.ext (by
      match d with
      | ⟨0, _⟩ => show s.val + 1 * u.val = s.val; omega
      | ⟨1, _⟩ => show 0 + 1 * n.val = n.val; omega
      | ⟨2, _⟩ => show 0 + 1 * c.val = c.val; omega)
  rw [e, hpay]
  rfl

/-- The output block after the body is `blockOut` of the six input blocks. -/
theorem out_block : out0_6 (F := Ideal) x0 x1 x2 x3 x4 x5 = blockOut x0 x1 x2 x3 x4 x5 := by
  funext y
  unfold out0_6
  refine View.canon_apply_of_pieces (blockOut x0 x1 x2 x3 x4 x5) _ ?_ y (cover0_6 _ _ _ _ _ _ _ _ _ _ _ _ _ _ _ _ y)
  intro p hp xi
  simp only [List.mem_cons, List.not_mem_nil, or_false] at hp
  rcases hp with rfl | rfl | rfl | rfl | rfl | rfl | rfl | rfl | rfl | rfl | rfl | rfl | rfl | rfl | rfl | rfl
  · exact piece_ok x0 x1 x2 x3 x4 x5 15 ![15, 0, 0] inb_S16x512x10_S1x512x10_15_0_0 rfl _ (fun u n c => (congrFun (cut15 _ _ _ _ _ _) _).trans
      (slab_piece x0 x1 x2 x3 x4 x5 15 ![15, 0, 0] inb_S16x512x512_S1x512x512_15_0_0 rfl ![15, 0, 0] inb_S16x512x256_S1x512x256_15_0_0 rfl u n c)) xi
  · exact piece_ok x0 x1 x2 x3 x4 x5 14 ![14, 0, 0] inb_S16x512x10_S1x512x10_14_0_0 rfl _ (fun u n c => (congrFun (cut14 _ _ _ _ _ _) _).trans
      (slab_piece x0 x1 x2 x3 x4 x5 14 ![14, 0, 0] inb_S16x512x512_S1x512x512_14_0_0 rfl ![14, 0, 0] inb_S16x512x256_S1x512x256_14_0_0 rfl u n c)) xi
  · exact piece_ok x0 x1 x2 x3 x4 x5 13 ![13, 0, 0] inb_S16x512x10_S1x512x10_13_0_0 rfl _ (fun u n c => (congrFun (cut13 _ _ _ _ _ _) _).trans
      (slab_piece x0 x1 x2 x3 x4 x5 13 ![13, 0, 0] inb_S16x512x512_S1x512x512_13_0_0 rfl ![13, 0, 0] inb_S16x512x256_S1x512x256_13_0_0 rfl u n c)) xi
  · exact piece_ok x0 x1 x2 x3 x4 x5 12 ![12, 0, 0] inb_S16x512x10_S1x512x10_12_0_0 rfl _ (fun u n c => (congrFun (cut12 _ _ _ _ _ _) _).trans
      (slab_piece x0 x1 x2 x3 x4 x5 12 ![12, 0, 0] inb_S16x512x512_S1x512x512_12_0_0 rfl ![12, 0, 0] inb_S16x512x256_S1x512x256_12_0_0 rfl u n c)) xi
  · exact piece_ok x0 x1 x2 x3 x4 x5 11 ![11, 0, 0] inb_S16x512x10_S1x512x10_11_0_0 rfl _ (fun u n c => (congrFun (cut11 _ _ _ _ _ _) _).trans
      (slab_piece x0 x1 x2 x3 x4 x5 11 ![11, 0, 0] inb_S16x512x512_S1x512x512_11_0_0 rfl ![11, 0, 0] inb_S16x512x256_S1x512x256_11_0_0 rfl u n c)) xi
  · exact piece_ok x0 x1 x2 x3 x4 x5 10 ![10, 0, 0] inb_S16x512x10_S1x512x10_10_0_0 rfl _ (fun u n c => (congrFun (cut10 _ _ _ _ _ _) _).trans
      (slab_piece x0 x1 x2 x3 x4 x5 10 ![10, 0, 0] inb_S16x512x512_S1x512x512_10_0_0 rfl ![10, 0, 0] inb_S16x512x256_S1x512x256_10_0_0 rfl u n c)) xi
  · exact piece_ok x0 x1 x2 x3 x4 x5 9 ![9, 0, 0] inb_S16x512x10_S1x512x10_9_0_0 rfl _ (fun u n c => (congrFun (cut9 _ _ _ _ _ _) _).trans
      (slab_piece x0 x1 x2 x3 x4 x5 9 ![9, 0, 0] inb_S16x512x512_S1x512x512_9_0_0 rfl ![9, 0, 0] inb_S16x512x256_S1x512x256_9_0_0 rfl u n c)) xi
  · exact piece_ok x0 x1 x2 x3 x4 x5 8 ![8, 0, 0] inb_S16x512x10_S1x512x10_8_0_0 rfl _ (fun u n c => (congrFun (cut8 _ _ _ _ _ _) _).trans
      (slab_piece x0 x1 x2 x3 x4 x5 8 ![8, 0, 0] inb_S16x512x512_S1x512x512_8_0_0 rfl ![8, 0, 0] inb_S16x512x256_S1x512x256_8_0_0 rfl u n c)) xi
  · exact piece_ok x0 x1 x2 x3 x4 x5 7 ![7, 0, 0] inb_S16x512x10_S1x512x10_7_0_0 rfl _ (fun u n c => (congrFun (cut7 _ _ _ _ _ _) _).trans
      (slab_piece x0 x1 x2 x3 x4 x5 7 ![7, 0, 0] inb_S16x512x512_S1x512x512_7_0_0 rfl ![7, 0, 0] inb_S16x512x256_S1x512x256_7_0_0 rfl u n c)) xi
  · exact piece_ok x0 x1 x2 x3 x4 x5 6 ![6, 0, 0] inb_S16x512x10_S1x512x10_6_0_0 rfl _ (fun u n c => (congrFun (cut6 _ _ _ _ _ _) _).trans
      (slab_piece x0 x1 x2 x3 x4 x5 6 ![6, 0, 0] inb_S16x512x512_S1x512x512_6_0_0 rfl ![6, 0, 0] inb_S16x512x256_S1x512x256_6_0_0 rfl u n c)) xi
  · exact piece_ok x0 x1 x2 x3 x4 x5 5 ![5, 0, 0] inb_S16x512x10_S1x512x10_5_0_0 rfl _ (fun u n c => (congrFun (cut5 _ _ _ _ _ _) _).trans
      (slab_piece x0 x1 x2 x3 x4 x5 5 ![5, 0, 0] inb_S16x512x512_S1x512x512_5_0_0 rfl ![5, 0, 0] inb_S16x512x256_S1x512x256_5_0_0 rfl u n c)) xi
  · exact piece_ok x0 x1 x2 x3 x4 x5 4 ![4, 0, 0] inb_S16x512x10_S1x512x10_4_0_0 rfl _ (fun u n c => (congrFun (cut4 _ _ _ _ _ _) _).trans
      (slab_piece x0 x1 x2 x3 x4 x5 4 ![4, 0, 0] inb_S16x512x512_S1x512x512_4_0_0 rfl ![4, 0, 0] inb_S16x512x256_S1x512x256_4_0_0 rfl u n c)) xi
  · exact piece_ok x0 x1 x2 x3 x4 x5 3 ![3, 0, 0] inb_S16x512x10_S1x512x10_3_0_0 rfl _ (fun u n c => (congrFun (cut3 _ _ _ _ _ _) _).trans
      (slab_piece x0 x1 x2 x3 x4 x5 3 ![3, 0, 0] inb_S16x512x512_S1x512x512_3_0_0 rfl ![3, 0, 0] inb_S16x512x256_S1x512x256_3_0_0 rfl u n c)) xi
  · exact piece_ok x0 x1 x2 x3 x4 x5 2 ![2, 0, 0] inb_S16x512x10_S1x512x10_2_0_0 rfl _ (fun u n c => (congrFun (cut2 _ _ _ _ _ _) _).trans
      (slab_piece x0 x1 x2 x3 x4 x5 2 ![2, 0, 0] inb_S16x512x512_S1x512x512_2_0_0 rfl ![2, 0, 0] inb_S16x512x256_S1x512x256_2_0_0 rfl u n c)) xi
  · exact piece_ok x0 x1 x2 x3 x4 x5 1 ![1, 0, 0] inb_S16x512x10_S1x512x10_1_0_0 rfl _ (fun u n c => (congrFun (cut1 _ _ _ _ _ _) _).trans
      (slab_piece x0 x1 x2 x3 x4 x5 1 ![1, 0, 0] inb_S16x512x512_S1x512x512_1_0_0 rfl ![1, 0, 0] inb_S16x512x256_S1x512x256_1_0_0 rfl u n c)) xi
  · exact piece_ok x0 x1 x2 x3 x4 x5 0 ![0, 0, 0] inb_S16x512x10_S1x512x10_0_0_0 rfl _ (fun u n c => (Eq.refl _).trans
      (slab_piece x0 x1 x2 x3 x4 x5 0 ![0, 0, 0] inb_S16x512x512_S1x512x512_0_0_0 rfl ![0, 0, 0] inb_S16x512x256_S1x512x256_0_0_0 rfl u n c)) xi

end Cert.KernelIdeal.Block

end
-- ==== Proof.KernelValue.lean ====
/-
  The kernel's result array: the batched two-layer graph convolution `Cert.Gcn.G` of the argument arrays.

  The grid has eight points; point `t` stages graphs `16 t … 16 t + 15` of the features and of the adjacency, the whole
  weight matrices, and the two biases as one-row matrices (the host reshapes them before the call), and writes back
  graphs `16 t … 16 t + 15` of the output. So block index `(s, n, c)` of point `t` is array index `(16 t + s, n, c)`, and
  the block the body leaves (`Cert.KernelIdeal.Block.blockOut`) is block `t` of `G` (`flushed_eq`). The eight blocks
  cover the output array (`cover6`), which therefore ends holding `G` (`final6`); the host operation after the call
  only adds a leading unit axis (`run`).
-/
import proofs.«165973_g45483703665113_cont_8to1_c_412_12_alg».proof.Proof.Gen.KernelIdeal.Frame
import proofs.«165973_g45483703665113_cont_8to1_c_412_12_alg».proof.Proof.BlockValue
import Idealize.ShloMosaic.Lib.Pipeline.Value
import Idealize.ShloMosaic.Lib.StableHlo.Run
import Idealize.ShloMosaic.Lib.ValueIdx
import Idealize.ShloMosaic.Lib.ValueLayout

noncomputable section

open scoped BigOperators

namespace Cert.KernelIdeal.Whole

open Cert.KernelIdeal Cert.KernelIdeal.Gen Cert.KernelIdeal.Block Idealize.ShloMosaic Idealize.ShloMosaic.TcCoe Idealize.SL.Sem
open Idealize.ShloMosaic.ValueIdx Cert.Gcn
open Idealize.ShloMosaic.Pipeline (Dat)

/-! ## A block of the specification -/

/-- If the feature and adjacency blocks are graphs `16 t + s` of the arrays and the one-row biases are the bias vectors,
    the block-level function at `(s, n, c)` is the specification at `(16 t + s, n, c)`. -/
theorem block_is_G (X : Vec Ideal S128x512x256 .f32) (A : Vec Ideal S128x512x512 .f32) (W1 : Vec Ideal S256x256 .f32)
    (B1 : Vec Ideal S256 .f32) (W2 : Vec Ideal S256x10 .f32) (B2 : Vec Ideal S10 .f32)
    (x0 : Vec Ideal S16x512x256 .f32) (x1 : Vec Ideal S16x512x512 .f32) (b1r : Vec Ideal S1x256 .f32) (b2r : Vec Ideal S1x10 .f32) (t : Nat)
    (h0 : ∀ (s : Fin 16) (g : Fin 128), g.val = 16 * t + s.val → ∀ (q : Fin 512) (f : Fin 256), x0 (ix3 s q f) = X (ix3 g q f))
    (h1 : ∀ (s : Fin 16) (g : Fin 128), g.val = 16 * t + s.val → ∀ (n p : Fin 512), x1 (ix3 s n p) = A (ix3 g n p))
    (h3 : ∀ h : Fin 256, b1r (ix2 (0 : Fin 1) h) = B1 (ix1 h)) (h5 : ∀ c : Fin 10, b2r (ix2 (0 : Fin 1) c) = B2 (ix1 c))
    (j : S16x512x10.Idx) (i : S128x512x10.Idx) (hi0 : (i 0).val = 16 * t + (j 0).val) (hi1 : (i 1).val = (j 1).val)
    (hi2 : (i 2).val = (j 2).val) :
    blockOut x0 x1 W1 b1r W2 b2r j = G X A W1 B1 W2 B2 i := by
  unfold blockOut G
  have e1 : i 1 = j 1 := Fin.ext hi1
  have e2 : i 2 = j 2 := Fin.ext hi2
  have E0 : (fun (q : Fin 512) (f : Fin 256) => x0 (ix3 (j 0) q f)) = fun q f => X (ix3 (i 0) q f) :=
    funext fun q => funext fun f => h0 (j 0) (i 0) hi0 q f
  have E1 : (fun (n p : Fin 512) => x1 (ix3 (j 0) n p)) = fun n p => A (ix3 (i 0) n p) :=
    funext fun n => funext fun p => h1 (j 0) (i 0) hi0 n p
  have E3 : (fun h : Fin 256 => b1r (ix2 (0 : Fin 1) h)) = fun h => B1 (ix1 h) := funext h3
  have E5 : (fun c : Fin 10 => b2r (ix2 (0 : Fin 1) c)) = fun c => B2 (ix1 c) := funext h5
  rw [E0, E1, E3, E5, e1, e2]

variable (m : (ℓ : Loc nD τ sig) → Buf (Elt Ideal) ℓ) (ρ : Dev nD → PrngReg)

/-! ## The windows' blocks as parts of the argument arrays -/

/-- The printed index maps over the grid: the feature, adjacency and output windows move with the point along the
    batch axis; the weight and bias windows stay at block zero. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 3) = t.val ∧ win0_6.index t (1 : Fin 3) = 0 ∧ win0_6.index t (2 : Fin 3) = 0) :=
  (by decide +kernel : ∀ t : Fin grid0.N, _)

/-- The first bias as the region finds it: the host's reshape of the bias vector to one row. -/
theorem V_b1 (c : Dev nD) : (V m c main_v0 : S1x256.Idx → EReal)
    = shapeCast S1x256 (m ((c : Thread nD τ).loc main_arg3)) shapeCasts_S256_S1x256 := by
  show StableHlo.after hostOps0 (fun b => m (c, b)) (Proc.devRef .tc main_v0) = _
  after_results
  rfl

/-- The second bias as the region finds it: the host's reshape of the bias vector to one row. -/
theorem V_b2 (c : Dev nD) : (V m c main_v1 : S1x10.Idx → EReal)
    = shapeCast S1x10 (m ((c : Thread nD τ).loc main_arg5)) shapeCasts_S10_S1x10 := by
  show StableHlo.after hostOps0 (fun b => m (c, b)) (Proc.devRef .tc main_v1) = _
  after_results
  rfl

/-- The feature block of point `t` is graphs `16 t … 16 t + 15` of the feature array. -/
theorem iblk0_apply (c : Dev nD) (t : Fin cfg0.N) (s : Fin 16) (g : Fin 128) (hg : g.val = 16 * t.val + s.val) (q : Fin 512) (f : Fin 256) :
    (iblk m c 0 t : Vec Ideal S16x512x256 .f32) (ix3 s q f)
      = (m ((c : Thread nD τ).loc main_arg0) : S128x512x256.Idx → EReal) (ix3 g q f) := by
  obtain ⟨⟨e0, e1, e2⟩, -⟩ := idx_facts t
  unfold iblk
  rw [View.read_apply]
  show V m c main_arg0 _ = _
  rw [V_main_arg0]
  congr 1
  funext a
  apply Fin.ext
  match a with
  | ⟨0, _⟩ => show win0_0.index t 0 * 16 + 1 * s.val = g.val; rw [e0, hg]; omega
  | ⟨1, _⟩ => show win0_0.index t 1 * 512 + 1 * q.val = q.val; rw [e1]; omega
  | ⟨2, _⟩ => show win0_0.index t 2 * 256 + 1 * f.val = f.val; rw [e2]; omega

/-- The adjacency block of point `t` is graphs `16 t … 16 t + 15` of the adjacency array. -/
theorem iblk1_apply (c : Dev nD) (t : Fin cfg0.N) (s : Fin 16) (g : Fin 128) (hg : g.val = 16 * t.val + s.val) (n p : Fin 512) :
    (iblk m c 1 t : Vec Ideal S16x512x512 .f32) (ix3 s n p)
      = (m ((c : Thread nD τ).loc main_arg1) : S128x512x512.Idx → EReal) (ix3 g n p) := by
  obtain ⟨-, ⟨e0, e1, e2⟩, -⟩ := idx_facts t
  unfold iblk
  rw [View.read_apply]
  show V m c main_arg1 _ = _
  rw [V_main_arg1]
  congr 1
  funext a
  apply Fin.ext
  match a with
  | ⟨0, _⟩ => show win0_1.index t 0 * 16 + 1 * s.val = g.val; rw [e0, hg]; omega
  | ⟨1, _⟩ => show win0_1.index t 1 * 512 + 1 * n.val = n.val; rw [e1]; omega
  | ⟨2, _⟩ => show win0_1.index t 2 * 512 + 1 * p.val = p.val; rw [e2]; omega

/-- The first weight block is the whole first weight matrix. -/
theorem iblk2_eq (c : Dev nD) (t : Fin cfg0.N) :
    (iblk m c 2 t : Vec Ideal S256x256 .f32) = (m ((c : Thread nD τ).loc main_arg2) : S256x256.Idx → EReal) := by
  obtain ⟨-, -, ⟨e0, e1⟩, -⟩ := idx_facts t
  funext j
  unfold iblk
  rw [View.read_apply]
  show V m c main_arg2 _ = _
  rw [V_main_arg2]
  congr 1
  funext a
  apply Fin.ext
  match a with
  | ⟨0, _⟩ => show win0_2.index t 0 * 256 + 1 * (j 0).val = (j 0).val; rw [e0]; omega
  | ⟨1, _⟩ => show win0_2.index t 1 * 256 + 1 * (j 1).val = (j 1).val; rw [e1]; omega

/-- The first bias block is the bias vector as one row. -/
theorem iblk3_eq (c : Dev nD) (t : Fin cfg0.N) :
    (iblk m c 3 t : Vec Ideal S1x256 .f32) = shapeCast S1x256 (m ((c : Thread nD τ).loc main_arg3)) shapeCasts_S256_S1x256 := by
  obtain ⟨-, -, -, ⟨e0, e1⟩, -⟩ := idx_facts t
  rw [← V_b1 m c]
  funext j
  unfold iblk
  rw [View.read_apply]
  show V m c main_v0 _ = V m c main_v0 j
  congr 1
  funext a
  apply Fin.ext
  match a with
  | ⟨0, _⟩ => show win0_3.index t 0 * 1 + 1 * (j 0).val = (j 0).val; rw [e0]; omega
  | ⟨1, _⟩ => show win0_3.index t 1 * 256 + 1 * (j 1).val = (j 1).val; rw [e1]; omega

/-- The second weight block is the whole second weight matrix. -/
theorem iblk4_eq (c : Dev nD) (t : Fin cfg0.N) :
    (iblk m c 4 t : Vec Ideal S256x10 .f32) = (m ((c : Thread nD τ).loc main_arg4) : S256x10.Idx → EReal) := by
  obtain ⟨-, -, -, -, ⟨e0, e1⟩, -⟩ := idx_facts t
  funext j
  unfold iblk
  rw [View.read_apply]
  show V m c main_arg4 _ = _
  rw [V_main_arg4]
  congr 1
  funext a
  apply Fin.ext
  match a with
  | ⟨0, _⟩ => show win0_4.index t 0 * 256 + 1 * (j 0).val = (j 0).val; rw [e0]; omega
  | ⟨1, _⟩ => show win0_4.index t 1 * 10 + 1 * (j 1).val = (j 1).val; rw [e1]; omega

/-- The second bias block is the bias vector as one row. -/
theorem iblk5_eq (c : Dev nD) (t : Fin cfg0.N) :
    (iblk m c 5 t : Vec Ideal S1x10 .f32) = shapeCast S1x10 (m ((c : Thread nD τ).loc main_arg5)) shapeCasts_S10_S1x10 := by
  obtain ⟨-, -, -, -, -, ⟨e0, e1⟩, -⟩ := idx_facts t
  rw [← V_b2 m c]
  funext j
  unfold iblk
  rw [View.read_apply]
  show V m c main_v1 _ = V m c main_v1 j
  congr 1
  funext a
  apply Fin.ext
  match a with
  | ⟨0, _⟩ => show win0_5.index t 0 * 1 + 1 * (j 0).val = (j 0).val; rw [e0]; omega
  | ⟨1, _⟩ => show win0_5.index t 1 * 10 + 1 * (j 1).val = (j 1).val; rw [e1]; omega

/-! ## The output array -/

/-- The specification at the launch contents of core `c`'s argument arrays. -/
abbrev Gm (c : Dev nD) : S128x512x10.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- What point `t` writes back is block `t` of the specification. -/
theorem flushed_eq (c : Dev nD) (t : Fin cfg0.N) :
    (dats m 0 c).flushed 6 t = ((cfg0.win 6).blk t).view.read (Elt Ideal) (Gm m c) := by
  show (cfg0.win 6).cut (grid0.coords t) ((dats m 0 c).after 6 t) = _
  rw [after0_6, out_block, iblk2_eq, iblk3_eq, iblk4_eq, iblk5_eq]
  obtain ⟨-, -, -, -, -, -, ⟨e0, e1, e2⟩⟩ := idx_facts t
  funext j
  show blockOut (iblk m c 0 t) (iblk m c 1 t) _ _ _ _ j = Gm m c (((cfg0.win 6).blk t).view.emb j)
  refine block_is_G _ _ _ _ _ _ _ _ _ _ t.val (fun s g hg q f => iblk0_apply m c t s g hg q f)
    (fun s g hg n p => iblk1_apply m c t s g hg n p) (fun h => shapeCast_a_1a_apply _ _ _ h) (fun cc => shapeCast_a_1a_apply _ _ _ cc)
    j _ ?_ ?_ ?_
  · show win0_6.index t 0 * 16 + 1 * (j 0).val = 16 * t.val + (j 0).val; rw [e0]; omega
  · show win0_6.index t 1 * 512 + 1 * (j 1).val = (j 1).val; rw [e1]; omega
  · show win0_6.index t 2 * 10 + 1 * (j 2).val = (j 2).val; rw [e2]; omega

/-- An index of the output array is in point `t`'s block iff each coordinate is in the block's range on its axis. -/
theorem mem_blk6 (t : Fin cfg0.N) (i : S128x512x10.Idx) :
    i ∈ ((cfg0.win 6).blk t).view.set ↔ ∀ a : Fin 3, win0_6.index t a * S16x512x10.size a ≤ (i a).val
      ∧ (i a).val < win0_6.index t a * S16x512x10.size a + S16x512x10.size a := by
  show i ∈ ((View.whole main_v2).slice (win0_6.rect t)).set ↔ _
  rw [View.set_slice_whole, Rect.mem_set_unit]
  exact Iff.rfl

/-- Graph `g` of the output is written back by point `g / 16`: the eight blocks cover the array. -/
theorem cover6 (i : S128x512x10.Idx) : ∃ t : Fin cfg0.N, (cfg0.win 6).flush t = true ∧ i ∈ ((cfg0.win 6).blk t).view.set := by
  have hi0 : (i 0).val < 128 := (i 0).isLt
  have hi1 : (i 1).val < 512 := (i 1).isLt
  have hi2 : (i 2).val < 10 := (i 2).isLt
  have hN : cfg0.N = 8 := N_0
  refine ⟨⟨(i 0).val / 16, by rw [hN]; omega⟩, flush0_6 _, ?_⟩
  obtain ⟨-, -, -, -, -, -, ⟨e0, e1, e2⟩⟩ := idx_facts ⟨(i 0).val / 16, by rw [hN]; omega⟩
  rw [mem_blk6]
  intro a
  match a with
  | ⟨0, _⟩ =>
    show win0_6.index _ 0 * 16 ≤ (i 0).val ∧ (i 0).val < win0_6.index _ 0 * 16 + 16
    rw [e0]; show (i 0).val / 16 * 16 ≤ (i 0).val ∧ (i 0).val < (i 0).val / 16 * 16 + 16; omega
  | ⟨1, _⟩ =>
    show win0_6.index _ 1 * 512 ≤ (i 1).val ∧ (i 1).val < win0_6.index _ 1 * 512 + 512
    rw [e1]; omega
  | ⟨2, _⟩ =>
    show win0_6.index _ 2 * 10 ≤ (i 2).val ∧ (i 2).val < win0_6.index _ 2 * 10 + 10
    rw [e2]; omega

/-- The output array after the run is the specification. -/
theorem final6 (c : Dev nD) : (dats m 0 c).arrAt 6 cfg0.N = Gm m c :=
  (dats m 0 c).arrAt_eq_of_cover 6 (Gm m c) (fun t _ => flushed_eq m c t) cover6

/-- The result buffer after the host operation that follows the call: the output array with a leading unit axis. -/
theorem tail_eq (c : Dev nD) :
    Pipeline.afterTail₀ cfgs (dats m) 0 (V0 m) [hostOps1] c main_v3
      = broadcastInDim S1x128x512x10 ![1, 2, 3] bcast_S128x512x10_S1x128x512x10_1_2_3 (Gm m c) := by
  unfold Pipeline.afterTail₀
  show StableHlo.after hostOps1 _ (Proc.devRef .tc main_v3) = _
  after_results
  exact congrArg _ ((Pipeline.withArrays_arr spec0 launch0.win.arr_inj c _ _ 6).trans (final6 m c))

/-- The run, read: every weakly fair execution ends with the result buffer at the specification under a leading unit
    axis, and the six argument arrays as launched. -/
theorem run : θ_run defs (onTc (τ := τ) (main (F := Ideal))) ⟨m, fun _ => 0, ρ⟩ fun r => ∀ c : Dev nD,
      r.2.mem ((c.tc : Thread nD τ).loc main_v3)
        = broadcastInDim S1x128x512x10 ![1, 2, 3] bcast_S128x512x10_S1x128x512x10_1_2_3 (Gm m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v3 (Pipeline.mem_restRefs_of main_v3 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c))⟩)
    (run_main m ρ)

end Cert.KernelIdeal.Whole

end
-- ==== Proof.lean ====
/-
  A batched two-layer graph convolution with dense adjacency: the kernel against its jnp reference, over the
  extended reals.

  Both programs compute, for each of 128 graphs with adjacency `a`, features `x`, weights `w1`, `w2` and biases `b1`, `b2`,

      out(n, c) = ∑ₚ a(n, p) · ( ∑ₕ max( ∑_q a(p, q) · ( ∑_f x(q, f) · w1(f, h) + b1(h) ), 0 ) · w2(h, c) + b2(c) )

  (`Cert.Gcn.G`, Proof/Spec.lean). The reference does it with four contractions over the whole batch
  (Proof/RefValue.lean). The kernel does it sixteen graphs per grid point, each graph by four matrix products into a
  zero accumulator on operands narrowed to bf16 — the narrowing is the identity on extended reals — (Proof/SlabValue.lean,
  Proof/BlockValue.lean), and the eight points' blocks tile the output (Proof/KernelValue.lean). Each product is the
  same sum over the same index set on both sides, so the two results are equal term by term and no algebraic law — in
  particular nothing that would need the inputs finite — is used. Both programs end by adding a leading unit axis.

  The frames of the two kernel programs are the generated ones; the reference's frame is its generated run with the
  result dropped; the idealization rewrote nothing, so `preserves` is trivial.
-/
import proofs.«165973_g45483703665113_cont_8to1_c_412_12_alg».proof.Defs
import proofs.«165973_g45483703665113_cont_8to1_c_412_12_alg».proof.Proof.Gen.Kernel
import proofs.«165973_g45483703665113_cont_8to1_c_412_12_alg».proof.Proof.Gen.Kernel.Skeleton
import proofs.«165973_g45483703665113_cont_8to1_c_412_12_alg».proof.Proof.Gen.Kernel.Launch
import proofs.«165973_g45483703665113_cont_8to1_c_412_12_alg».proof.Proof.Gen.Kernel.Points
import proofs.«165973_g45483703665113_cont_8to1_c_412_12_alg».proof.Proof.Gen.Kernel.Frame
import proofs.«165973_g45483703665113_cont_8to1_c_412_12_alg».proof.Proof.Gen.KernelIdeal
import proofs.«165973_g45483703665113_cont_8to1_c_412_12_alg».proof.Proof.Gen.KernelIdeal.Skeleton
import proofs.«165973_g45483703665113_cont_8to1_c_412_12_alg».proof.Proof.Gen.KernelIdeal.Launch
import proofs.«165973_g45483703665113_cont_8to1_c_412_12_alg».proof.Proof.Gen.KernelIdeal.Points
import proofs.«165973_g45483703665113_cont_8to1_c_412_12_alg».proof.Proof.Gen.KernelIdeal.Frame
import proofs.«165973_g45483703665113_cont_8to1_c_412_12_alg».proof.Proof.Gen.ReferenceIdeal
import proofs.«165973_g45483703665113_cont_8to1_c_412_12_alg».proof.Proof.Gen.ReferenceIdeal.Run
import proofs.«165973_g45483703665113_cont_8to1_c_412_12_alg».proof.Proof.Gen.ReferenceIdeal.Read
import proofs.«165973_g45483703665113_cont_8to1_c_412_12_alg».proof.Proof.Gen.Pre_finite_inputs
import proofs.«165973_g45483703665113_cont_8to1_c_412_12_alg».proof.Proof.RefValue
import proofs.«165973_g45483703665113_cont_8to1_c_412_12_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The kernel's result buffer ends at the specification of its arguments under a leading unit axis; the reference's
    at its last contraction under the same added axis, and that contraction is the specification of ITS arguments, which
    agree with the kernel's. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq]
  unfold Cert.ReferenceIdeal.Read.val_main_v11
  rw [Cert.ReferenceIdeal.RefValue.ref_eq, (hagree c).1, (hagree c).2.1, (hagree c).2.2.1, (hagree c).2.2.2.1,
    (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
